-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S12800000 : Shape := ⟨1, ![12800000]⟩
abbrev S2x1600000 : Shape := ⟨2, ![2, 1600000]⟩
abbrev S128x128 : Shape := ⟨2, ![128, 128]⟩
abbrev S128 : Shape := ⟨1, ![128]⟩

class Facts : Prop where
  reducesTo_S_S_d : S_.ReducesTo [] S_
  h_S_ : 0 < S_.numel
  bcast_S_S12800000 : S_.BroadcastsInDim S12800000 (![] : Fin 0 → Fin S12800000.rank)
  reducesTo_S12800000_S_d0 : S12800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128x128 .f32 := Host.absf main_arg5
  let main_cst_6 : FVec F S_ .f32 := constant S_ .f32 0x7F800000#32
  let main_v19 : FVec F S128x128 .f32 := broadcastInDim S128x128 ![] bcast_S_S128x128 main_cst_6
  let main_v20 : IVec S128x128 1 := cmpf .olt main_v18 main_v19
  let main_c_7 : IVec S_ 1 := constantI S_ 1 1#1
  let main_v21 : IVec S_ 1 := (fun x v => Host.reduce IntOp.andi x v reducesTo_S128x128_S_d0_1 h_S_) main_v20 main_c_7
  let main_v22 : IVec S_ 1 := andi main_v17 main_v21
  let main_v23 : FVec F S128 .f32 := Host.absf main_arg6
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  main_v27

def fn {F : FTy → Type} [FloatOps F] (main_arg0 : FVec F S_ .f32) (main_arg1 : FVec F S12800000 .f32) (main_arg2 : IVec S2x1600000 32) (main_arg3 : FVec F S128x128 .f32) (main_arg4 : FVec F S128 .f32) (main_arg5 : FVec F S128x128 .f32) (main_arg6 : FVec F S128 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S12800000 .f32 := Host.absf main_arg1
  let main_cst_0 : FVec F S_ .f32 := constant S_ .f32 0x7F800000#32
  let main_v4 : FVec F S12800000 .f32 := broadcastInDim S12800000 ![] bcast_S_S12800000 main_cst_0
  let main_v5 : IVec S12800000 1 := cmpf .olt main_v3 main_v4
  let main_c_1 : IVec S_ 1 := constantI S_ 1 1#1
  let main_v6 : IVec S_ 1 := (fun x v => Host.reduce IntOp.andi x v reducesTo_S12800000_S_d0 h_S_) main_v5 main_c_1
  let main_v7 : IVec S_ 1 := andi main_v2 main_v6
  let main_v8 : FVec F S128x128 .f32 := Host.absf main_arg3
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : IVec S_ 1 := andi main_v7 main_v11
  let main_v13 : FVec F S128 .f32 := Host.absf main_arg4
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg5 main_arg6 main_v12 main_v15 main_c_5
-- ==== Kernel.lean ====
abbrev S_ : Shape := ⟨0, ![]⟩
abbrev S12800000 : Shape := ⟨1, ![12800000]⟩
abbrev S2x1600000 : Shape := ⟨2, ![2, 1600000]⟩
abbrev S128x128 : Shape := ⟨2, ![128, 128]⟩
abbrev S128 : Shape := ⟨1, ![128]⟩
abbrev S100000x128 : Shape := ⟨2, ![100000, 128]⟩
abbrev S10000x128 : Shape := ⟨2, ![10000, 128]⟩
abbrev S1x128 : Shape := ⟨2, ![1, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S50000x128 : Shape := ⟨2, ![50000, 128]⟩
abbrev S50000 : Shape := ⟨1, ![50000]⟩
abbrev S50000x1 : Shape := ⟨2, ![50000, 1]⟩
abbrev S5000x128 : Shape := ⟨2, ![5000, 128]⟩
abbrev S5000x1 : Shape := ⟨2, ![5000, 1]⟩
abbrev S100000 : Shape := ⟨1, ![100000]⟩
abbrev S100000x1 : Shape := ⟨2, ![100000, 1]⟩
abbrev S10000x1 : Shape := ⟨2, ![10000, 1]⟩

abbrev nBuf : Space → Nat
  | .hbm => 54
  | .vmem => 20
  | .smem => 0
  | _ => 0

abbrev bufTy : (tb : Table) → Fin (tcTables nBuf tb) → BufTy
  | .hbm, ⟨0, _⟩ => ⟨S_, .f32⟩
  | .hbm, ⟨1, _⟩ => ⟨S12800000, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000x128, .f32⟩
  | .hbm, ⟨8, _⟩ => ⟨S100000x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S50000x128, .f32⟩
  | .hbm, ⟨24, _⟩ => ⟨S1600000x1, .i32⟩
  | .hbm, ⟨25, _⟩ => ⟨S50000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S50000, .f32⟩
  | .hbm, ⟨30, _⟩ => ⟨S1600000x1, .i32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S_, .f32⟩
  | .hbm, ⟨48, _⟩ => ⟨S100000, .f32⟩
  | .hbm, ⟨49, _⟩ => ⟨S1600000x1, .i32⟩
  | .hbm, ⟨50, _⟩ => ⟨S100000, .f32⟩
  | .hbm, ⟨51, _⟩ => ⟨S100000x1, .f32⟩
  | .hbm, ⟨52, _⟩ => ⟨S100000x128, .f32⟩
  | .hbm, ⟨53, _⟩ => ⟨S12800000, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S10000x128, .f32⟩
  | .local _ .vmem, ⟨15, _⟩ => ⟨S10000x128, .f32⟩
  | .local _ .vmem, ⟨16, _⟩ => ⟨S10000x1, .f32⟩
  | .local _ .vmem, ⟨17, _⟩ => ⟨S10000x1, .f32⟩
  | .local _ .vmem, ⟨18, _⟩ => ⟨S10000x128, .f32⟩
  | .local _ .vmem, ⟨19, _⟩ => ⟨S10000x128, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S12800000_S100000x128 : S12800000.ShapeCasts S100000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  broadcasts_S1x128_S5000x128 : S1x128.Broadcasts S5000x128
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  shapeCasts_S100000x128_S12800000 : S100000x128.ShapeCasts S12800000
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v31) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S_ : Shape := ⟨0, ![]⟩
abbrev S12800000 : Shape := ⟨1, ![12800000]⟩
abbrev S2x1600000 : Shape := ⟨2, ![2, 1600000]⟩
abbrev S128x128 : Shape := ⟨2, ![128, 128]⟩
abbrev S128 : Shape := ⟨1, ![128]⟩
abbrev S100000x128 : Shape := ⟨2, ![100000, 128]⟩
abbrev S1x1600000 : Shape := ⟨2, ![1, 1600000]⟩
abbrev S1600000 : Shape := ⟨1, ![1600000]⟩
abbrev S1x128 : Shape := ⟨2, ![1, 128]⟩
abbrev S1600000x1 : Shape := ⟨2, ![1600000, 1]⟩
abbrev S1600000x128 : Shape := ⟨2, ![1600000, 128]⟩
abbrev S50000x128 : Shape := ⟨2, ![50000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩

abbrev nBuf : Space → Nat
  | .hbm => 72
  | .vmem => 0
  | .smem => 0
  | _ => 0

abbrev bufTy : (tb : Table) → Fin (tcTables nBuf tb) → BufTy
  | .hbm, ⟨0, _⟩ => ⟨S_, .f32⟩
  | .hbm, ⟨1, _⟩ => ⟨S12800000, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S50000x128, .f32⟩
  | .hbm, ⟨29, _⟩ => ⟨S1600000x1, .i32⟩
  | .hbm, ⟨30, _⟩ => ⟨S50000x128, .f32⟩
  | .hbm, ⟨31, _⟩ => ⟨S_, .f32⟩
  | .hbm, ⟨32, _⟩ => ⟨S50000, .f32⟩
  | .hbm, ⟨33, _⟩ => ⟨S1600000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S12800000, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  shapeCasts_S12800000_S100000x128 : S12800000.ShapeCasts S100000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S100000x128_S12800000 : S100000x128.ShapeCasts S12800000
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.NodeMessages.lean ====
/-
  The first launch of the hypergraph layer: every node's feature row times a 128 x 128 weight matrix, plus a bias row.
  The launch walks the 100000 rows in ten blocks of 10000; at each grid point the body multiplies its block of rows by
  the whole weight matrix (one matrix product into a zero accumulator) and adds the bias broadcast down the rows. Over
  the extended reals the narrowing of both factors to bf16 is the identity, so entry (r, c) of the block the point
  writes back is  sum_k x[r, k] * w[k, c] + b[c]  of the block's own rows: a function of the row alone. Hence the ten
  blocks are the restrictions of ONE function of the arrays the launch is entered with, `affineRows`, and since the
  blocks tile the result array it ends holding that function everywhere.
  Everything is stated at the buffer contents `V` the launch is entered with, whatever they are.
-/
import proofs.«132453_j4088808866139_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.NodeMessages

open Cert.KernelIdeal Cert.KernelIdeal.Gen

/-- Row `i 0` of `X` against column `i 1` of `W`, plus entry `i 1` of the bias. -/
def affineRows (X : S100000x128.Idx → Elt Ideal .f32) (W : S128x128.Idx → Elt Ideal .f32) (b : S128.Idx → Elt Ideal .f32) :
    S100000x128.Idx → Elt Ideal .f32 :=
  fun i => (∑ k : Fin 128, X (ix2 ⟨(i 0).val, (i 0).isLt⟩ k) * W (ix2 k ⟨(i 1).val, (i 1).isLt⟩)) + b (ix1 ⟨(i 1).val, (i 1).isLt⟩)

/-! ## The body's product at an entry -/

/-- The matrix product's dimension numbers: rows of the block against the whole weight matrix. -/
abbrev rowsTimesW := dot_S10000x128_S128x128_S10000x128_1_0_0_1_n_n

theorem lhs_row (i : S10000x128.Idx) (q : rowsTimesW.contr.Idx) : (rowsTimesW.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_contr (i : S10000x128.Idx) (q : rowsTimesW.contr.Idx) : (rowsTimesW.lhsIdx i q 1).val = (q ⟨0, by decide⟩).val :=
  dot_S10000x128_S128x128_S10000x128_1_0_0_1_n_n.lhsIdx_val_of_single rfl i q
theorem rhs_contr (i : S10000x128.Idx) (q : rowsTimesW.contr.Idx) : (rowsTimesW.rhsIdx i q 0).val = (q ⟨0, by decide⟩).val :=
  dot_S10000x128_S128x128_S10000x128_1_0_0_1_n_n.rhsIdx_val_of_single rfl i q
theorem rhs_col (i : S10000x128.Idx) (q : rowsTimesW.contr.Idx) : (rowsTimesW.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of a block of rows with the weight matrix, into the zero accumulator, at entry (p, q): the row's sum. -/
theorem product_apply (x : FVec Ideal S10000x128 .bf16) (w : FVec Ideal S128x128 .bf16) (p : Fin 10000) (q : Fin 128) :
    matmul (F := Ideal) rowsTimesW none x w (constant S10000x128 .f32 0x00000000#32) (ix2 p q) = ∑ k : Fin 128, x (ix2 p k) * w (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_contr _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- What the body stores at entry (p, q) of its block: the row's sum plus the bias entry. -/
theorem stored_apply (x : FVec Ideal S10000x128 .f32) (w : FVec Ideal S128x128 .f32) (b : FVec Ideal S128 .f32) (p : Fin 10000) (q : Fin 128) :
    k0_pay1 (F := Ideal) x w b (ix2 p q) = (∑ k : Fin 128, x (ix2 p k) * w (ix2 k q)) + b (ix1 q) := by
  unfold k0_pay1
  show matmul (F := Ideal) rowsTimesW none (truncf .bf16 (shapeCast S10000x128 x shapeCasts_S10000x128_S10000x128) bitsLt_bf16_f32) (truncf .bf16 w bitsLt_bf16_f32) (constant S10000x128 .f32 0x00000000#32) (ix2 p q)
      + broadcastTo S10000x128 (shapeCast S1x128 b shapeCasts_S128_S1x128) broadcasts_S1x128_S10000x128 (ix2 p q) = _
  rw [product_apply, broadcastTo_1b_ab_apply, shapeCast_a_1a_apply, shapeCast_self]
  rfl

/-! ## The blocks of the launch -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The index maps over the ten grid points: the rows window and the result window sit at block row `t`, column block 0;
    the weight matrix and the bias are their one block throughout. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry (p, k) of the rows block at point `t` is entry (10000 t + p, k) of the feature array. -/
theorem rows_apply (c : Dev nD) (t : Fin cfg0.N) (p : Fin 10000) (k : Fin 128) (i : S100000x128.Idx)
    (h0 : (i 0).val = t.val * 10000 + p.val) (h1 : (i 1).val = k.val) :
    (iblk0 V c 0 t : Vec Ideal S10000x128 .f32) (ix2 p k) = (V c main_v0 : S100000x128.Idx → Elt Ideal .f32) i := by
  obtain ⟨e0, e1, -⟩ := block_indices t
  unfold iblk0
  rw [View.read_apply]
  show V c main_v0 _ = V c main_v0 _
  refine congrArg (V c main_v0) (funext fun a => Fin.ext ?_)
  match a with
  | ⟨0, _⟩ => show win0_0.index t (0 : Fin 2) * 10000 + 1 * p.val = (i 0).val; rw [e0, h0]; omega
  | ⟨1, _⟩ => show win0_0.index t (1 : Fin 2) * 128 + 1 * k.val = (i 1).val; rw [e1, h1]; omega

/-- The weight window's block is the weight matrix, at every point. -/
theorem weights_apply (c : Dev nD) (t : Fin cfg0.N) (k q : Fin 128) :
    (iblk0 V c 1 t : Vec Ideal S128x128 .f32) (ix2 k q) = (V c main_arg3 : S128x128.Idx → Elt Ideal .f32) (ix2 k q) := by
  obtain ⟨-, -, e2, e3, -⟩ := block_indices t
  unfold iblk0
  rw [View.read_apply]
  show V c main_arg3 _ = V c main_arg3 _
  refine congrArg (V c main_arg3) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The bias window's block is the bias row, at every point. -/
theorem bias_apply (c : Dev nD) (t : Fin cfg0.N) (q : Fin 128) :
    (iblk0 V c 2 t : Vec Ideal S128 .f32) (ix1 q) = (V c main_arg4 : S128.Idx → Elt Ideal .f32) (ix1 q) := by
  obtain ⟨-, -, -, -, e4, -⟩ := block_indices t
  unfold iblk0
  rw [View.read_apply]
  show V c main_arg4 _ = V c main_arg4 _
  refine congrArg (V c main_arg4) (funext fun a => Fin.ext ?_)
  match a with
  | ⟨0, _⟩ => show win0_2.index t (0 : Fin 1) * 128 + 1 * q.val = q.val; rw [e4]; omega

/-- What point `t` stores at entry `j` of its block is `affineRows` of the entry arrays at the entry's place `i` in the
    result array: row 10000 t + j 0, column j 1. -/
theorem stored_eq (c : Dev nD) (t : Fin cfg0.N) (j : S10000x128.Idx) (i : S100000x128.Idx)
    (h0 : (i 0).val = t.val * 10000 + (j 0).val) (h1 : (i 1).val = (j 1).val) :
    k0_pay1 (F := Ideal) (iblk0 V c 0 t) (iblk0 V c 1 t) (iblk0 V c 2 t) j
      = affineRows (V c main_v0) (V c main_arg3) (V c main_arg4) i := by
  obtain ⟨p, q, rfl⟩ : ∃ (p : Fin 10000) (q : Fin 128), j = ix2 p q := ⟨j 0, j 1, eq_ix2 j⟩
  refine (stored_apply (iblk0 V c 0 t) (iblk0 V c 1 t) (iblk0 V c 2 t) p q).trans ?_
  unfold affineRows
  have hq : (⟨(i 1).val, (i 1).isLt⟩ : Fin 128) = q := Fin.ext h1
  rw [hq, bias_apply V c t q]
  refine congrArg (· + (V c main_arg4 : S128.Idx → Elt Ideal .f32) (ix1 q)) (Finset.sum_congr rfl fun k _ => ?_)
  rw [weights_apply V c t k q, rows_apply V c t p k (ix2 ⟨(i 0).val, (i 0).isLt⟩ k) h0 rfl]

/-- WHAT POINT `t` WRITES BACK is its block of `affineRows` of the arrays the launch is entered with. -/
theorem flushed_eq (c : Dev nD) (t : Fin cfg0.N) :
    (dat0 V c).flushed 3 t = ((cfg0.win 3).blk t).view.read (Elt Ideal) (affineRows (V c main_v0) (V c main_arg3) (V c main_arg4)) := by
  show (cfg0.win 3).cut (grid0.coords t) ((dat0 V c).after 3 t) = _
  rw [after0_3]
  unfold out0_3
  rw [View.canon_unit_zero zero2]
  simp only [View.ld_unit_zero (S := S10000x128) zero2, View.ld_unit_zero (S := S128x128) zero2, View.ld_unit_zero (S := S128) zero1]
  obtain ⟨-, -, -, -, -, e5, e6⟩ := block_indices t
  funext j
  refine stored_eq V c t j _ ?_ ?_
  · show win0_3.index t (0 : Fin 2) * 10000 + 1 * (j 0).val = t.val * 10000 + (j 0).val; rw [e5]; omega
  · show win0_3.index t (1 : Fin 2) * 128 + 1 * (j 1).val = (j 1).val; rw [e6]; omega

/-- An entry of the result array lies in point `t`'s block iff each coordinate lies in the block's range. -/
theorem mem_block (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1).slice (win0_3.rect t)).set ↔ _
  rw [View.set_slice_whole, Rect.mem_set_unit]
  exact Iff.rfl

/-- Row `r` of the result is written by point `r / 10000`: the ten blocks tile the array. -/
theorem covered (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 10000 < cfg0.N := lt_of_lt_of_eq (by omega : (i 0).val / 10000 < 10) N_0.symm
  refine ⟨⟨(i 0).val / 10000, ht⟩, flush0_3 _, ?_⟩
  rw [mem_block]
  obtain ⟨-, -, -, -, -, e5, e6⟩ := block_indices ⟨(i 0).val / 10000, ht⟩
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e5]; show (i 0).val / 10000 * 10000 ≤ (i 0).val ∧ (i 0).val < (i 0).val / 10000 * 10000 + 10000; omega
  | ⟨1, _⟩ =>
    show win0_3.index ⟨(i 0).val / 10000, ht⟩ (1 : Fin 2) * 128 ≤ (i 1).val ∧ (i 1).val < win0_3.index ⟨(i 0).val / 10000, ht⟩ (1 : Fin 2) * 128 + 128
    rw [e6]; omega

/-- THE RESULT ARRAY after the launch: `affineRows` of the arrays the launch is entered with. -/
theorem result (c : Dev nD) : (dat0 V c).arrAt 3 cfg0.N = affineRows (V c main_v0) (V c main_arg3) (V c main_arg4) :=
  (dat0 V c).arrAt_eq_of_cover 3 _ (fun t _ => flushed_eq V c t) covered

end Cert.KernelIdeal.NodeMessages

end
-- ==== Proof.LibColumnBroadcast.lean ====
/-
  A per-row scalar kept as a column: the two layout steps of a row-wise normalisation. A length-a vector reshaped to an
  [a, 1] column reads, at row p, the vector's entry p; and an [a, 1] column broadcast along the rows to [a, b] reads, at
  any entry of row p, the column's entry of that row.
-/
import Idealize.ShloMosaic.Lib.Pipeline.Value
import Idealize.ShloMosaic.Lib.ValueIdx

noncomputable section

namespace Idealize.ShloMosaic.ValueIdx

open Idealize.ShloMosaic

/-- An `[a, 1]` column broadcast to `[a, b]` reads, at `(p, c)`, the column's entry of row `p`, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx

end
-- ==== Proof.EdgeMessages.lean ====
/-
  The second launch of the hypergraph layer: every hyperedge's summed messages are divided by the edge's degree (at
  least one), and the mean row is sent through a 128 x 128 weight matrix plus a bias row.
  The launch walks the 50000 edge rows in ten blocks of 5000. At a grid point the body takes the block of summed rows
  and the block of the degree column, clamps each degree below by one, divides every entry of a row by the row's clamped
  degree, multiplies the block of mean rows by the whole weight matrix (one matrix product into a zero accumulator; the
  narrowing of both factors to bf16 is the identity over the extended reals) and adds the bias down the rows. Entry
  (r, c) of what a point writes back is  sum_k (s[r, k] / max(d[r], 1)) * w[k, c] + b[c]  of the block's own rows, so
  the ten blocks are the restrictions of ONE function, `meanThenAffine`, of the arrays the launch is entered with, and
  since they tile the result array it ends holding that function everywhere.
-/
import proofs.«132453_j4088808866139_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«132453_j4088808866139_1_alg».proof.Proof.LibColumnBroadcast

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.EdgeMessages

open Cert.KernelIdeal Cert.KernelIdeal.Gen

/-- A row of sums divided by the row's degree, the degree clamped below by one. -/
def meanRows (S : S50000x128.Idx → Elt Ideal .f32) (d : S50000x1.Idx → Elt Ideal .f32) : S50000x128.Idx → Elt Ideal .f32 :=
  fun i => Ideal.div (S i) (max (d (ix2 ⟨(i 0).val, (i 0).isLt⟩ (0 : Fin 1))) (Ideal.ofBits .f32 0x3F800000#32))

/-- Row `i 0` of `X` against column `i 1` of `W`, plus entry `i 1` of the bias. -/
def affineRows (X : S50000x128.Idx → Elt Ideal .f32) (W : S128x128.Idx → Elt Ideal .f32) (b : S128.Idx → Elt Ideal .f32) :
    S50000x128.Idx → Elt Ideal .f32 :=
  fun i => (∑ k : Fin 128, X (ix2 ⟨(i 0).val, (i 0).isLt⟩ k) * W (ix2 k ⟨(i 1).val, (i 1).isLt⟩)) + b (ix1 ⟨(i 1).val, (i 1).isLt⟩)

/-- The launch's result as one function of the arrays it is entered with. -/
def meanThenAffine (S : S50000x128.Idx → Elt Ideal .f32) (d : S50000x1.Idx → Elt Ideal .f32)
    (W : S128x128.Idx → Elt Ideal .f32) (b : S128.Idx → Elt Ideal .f32) : S50000x128.Idx → Elt Ideal .f32 :=
  affineRows (meanRows S d) W b

/-! ## The body's product at an entry -/

/-- The matrix product's dimension numbers: rows of the block against the whole weight matrix. -/
abbrev rowsTimesW := dot_S5000x128_S128x128_S5000x128_1_0_0_1_n_n

theorem lhs_row (i : S5000x128.Idx) (q : rowsTimesW.contr.Idx) : (rowsTimesW.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : rowsTimesW.contr.Idx) : (rowsTimesW.lhsIdx i q 1).val = (q ⟨0, by decide⟩).val :=
  dot_S5000x128_S128x128_S5000x128_1_0_0_1_n_n.lhsIdx_val_of_single rfl i q
theorem rhs_contr (i : S5000x128.Idx) (q : rowsTimesW.contr.Idx) : (rowsTimesW.rhsIdx i q 0).val = (q ⟨0, by decide⟩).val :=
  dot_S5000x128_S128x128_S5000x128_1_0_0_1_n_n.rhsIdx_val_of_single rfl i q
theorem rhs_col (i : S5000x128.Idx) (q : rowsTimesW.contr.Idx) : (rowsTimesW.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block of rows with the weight matrix, into the zero accumulator, at entry (p, q): the row's sum. -/
theorem product_apply (x : FVec Ideal S5000x128 .bf16) (w : FVec Ideal S128x128 .bf16) (p : Fin 5000) (q : Fin 128) :
    matmul (F := Ideal) rowsTimesW none x w (constant S5000x128 .f32 0x00000000#32) (ix2 p q) = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- An entry of the block of mean rows: the sum's entry over its row's clamped degree. -/
theorem mean_apply (d : FVec Ideal S5000x1 .f32) (s : FVec Ideal S5000x128 .f32) (p : Fin 5000) (k : Fin 128) :
    divf (F := Ideal) (shapeCast S5000x128 s shapeCasts_S5000x128_S5000x128)
        (broadcastTo S5000x128 (maximumf (F := Ideal) (shapeCast S5000x1 d shapeCasts_S5000x1_S5000x1) (broadcast S5000x1 (Scalar.ofBits .f32 0x3F800000#32))) broadcasts_S5000x1_S5000x128) (ix2 p k)
      = Ideal.div (s (ix2 p k)) (max (d (ix2 p (0 : Fin 1))) (Ideal.ofBits .f32 0x3F800000#32)) := by
  rw [divf_apply, broadcastTo_a1_ab_apply, shapeCast_self, shapeCast_self]
  rfl

/-- What the body stores at entry (p, q) of its block. -/
theorem stored_apply (d : FVec Ideal S5000x1 .f32) (s : FVec Ideal S5000x128 .f32) (w : FVec Ideal S128x128 .f32) (b : FVec Ideal S128 .f32) (p : Fin 5000) (q : Fin 128) :
    k1_pay1 (F := Ideal) d s w b (ix2 p q)
      = (∑ k : Fin 128, Ideal.div (s (ix2 p k)) (max (d (ix2 p (0 : Fin 1))) (Ideal.ofBits .f32 0x3F800000#32)) * w (ix2 k q)) + b (ix1 q) := by
  unfold k1_pay1
  show matmul (F := Ideal) rowsTimesW none
        (truncf .bf16 (divf (F := Ideal) (shapeCast S5000x128 s shapeCasts_S5000x128_S5000x128)
          (broadcastTo S5000x128 (maximumf (F := Ideal) (shapeCast S5000x1 d shapeCasts_S5000x1_S5000x1) (broadcast S5000x1 (Scalar.ofBits .f32 0x3F800000#32))) broadcasts_S5000x1_S5000x128)) bitsLt_bf16_f32)
        (truncf .bf16 w bitsLt_bf16_f32) (constant S5000x128 .f32 0x00000000#32) (ix2 p q)
      + broadcastTo S5000x128 (shapeCast S1x128 b shapeCasts_S128_S1x128) broadcasts_S1x128_S5000x128 (ix2 p q) = _
  rw [product_apply, broadcastTo_1b_ab_apply, shapeCast_a_1a_apply]
  refine congrArg (· + b (ix1 q)) (Finset.sum_congr rfl fun k _ => ?_)
  refine congrArg (· * w (ix2 k q)) ?_
  exact mean_apply d s p k

/-! ## The blocks of the launch -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The index maps over the ten grid points: the sums, the degree column and the result sit at block row `t`, column
    block 0; the weight matrix and the bias are their one block throughout. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Entry (p, k) of the sums block at point `t` is entry (5000 t + p, k) of the array of summed messages. -/
theorem sums_apply (c : Dev nD) (t : Fin cfg1.N) (p : Fin 5000) (k : Fin 128) (i : S50000x128.Idx)
    (h0 : (i 0).val = t.val * 5000 + p.val) (h1 : (i 1).val = k.val) :
    (iblk1 V c 0 t : Vec Ideal S5000x128 .f32) (ix2 p k) = (V c main_v15 : S50000x128.Idx → Elt Ideal .f32) i := by
  obtain ⟨e0, e1, -⟩ := block_indices t
  unfold iblk1
  rw [View.read_apply]
  show V c main_v15 _ = V c main_v15 _
  refine congrArg (V c main_v15) (funext fun a => Fin.ext ?_)
  match a with
  | ⟨0, _⟩ => show win1_0.index t (0 : Fin 2) * 5000 + 1 * p.val = (i 0).val; rw [e0, h0]; omega
  | ⟨1, _⟩ => show win1_0.index t (1 : Fin 2) * 128 + 1 * k.val = (i 1).val; rw [e1, h1]; omega

/-- Entry (p, 0) of the degree block at point `t` is entry (5000 t + p, 0) of the degree column. -/
theorem degree_apply (c : Dev nD) (t : Fin cfg1.N) (p : Fin 5000) (r : Fin 50000) (h0 : r.val = t.val * 5000 + p.val) :
    (iblk1 V c 1 t : Vec Ideal S5000x1 .f32) (ix2 p (0 : Fin 1)) = (V c main_v20 : S50000x1.Idx → Elt Ideal .f32) (ix2 r (0 : Fin 1)) := by
  obtain ⟨-, -, e2, e3, -⟩ := block_indices t
  unfold iblk1
  rw [View.read_apply]
  show V c main_v20 _ = V c main_v20 _
  refine congrArg (V c main_v20) (funext fun a => Fin.ext ?_)
  match a with
  | ⟨0, _⟩ => show win1_1.index t (0 : Fin 2) * 5000 + 1 * p.val = r.val; rw [e2, h0]; omega
  | ⟨1, _⟩ => show win1_1.index t (1 : Fin 2) * 1 + 1 * 0 = 0; rw [e3]

/-- The weight window's block is the weight matrix, at every point. -/
theorem weights_apply (c : Dev nD) (t : Fin cfg1.N) (k q : Fin 128) :
    (iblk1 V c 2 t : Vec Ideal S128x128 .f32) (ix2 k q) = (V c main_arg5 : S128x128.Idx → Elt Ideal .f32) (ix2 k q) := by
  obtain ⟨-, -, -, -, e4, e5, -⟩ := block_indices t
  unfold iblk1
  rw [View.read_apply]
  show V c main_arg5 _ = V c main_arg5 _
  refine congrArg (V c main_arg5) (funext fun a => Fin.ext ?_)
  match a with
  | ⟨0, _⟩ => show win1_2.index t (0 : Fin 2) * 128 + 1 * k.val = k.val; rw [e4]; omega
  | ⟨1, _⟩ => show win1_2.index t (1 : Fin 2) * 128 + 1 * q.val = q.val; rw [e5]; omega

/-- The bias window's block is the bias row, at every point. -/
theorem bias_apply (c : Dev nD) (t : Fin cfg1.N) (q : Fin 128) :
    (iblk1 V c 3 t : Vec Ideal S128 .f32) (ix1 q) = (V c main_arg6 : S128.Idx → Elt Ideal .f32) (ix1 q) := by
  obtain ⟨-, -, -, -, -, -, e6, -⟩ := block_indices t
  unfold iblk1
  rw [View.read_apply]
  show V c main_arg6 _ = V c main_arg6 _
  refine congrArg (V c main_arg6) (funext fun a => Fin.ext ?_)
  match a with
  | ⟨0, _⟩ => show win1_3.index t (0 : Fin 1) * 128 + 1 * q.val = q.val; rw [e6]; omega

/-- What point `t` stores at entry `j` of its block is `meanThenAffine` of the entry arrays at the entry's place `i` in
    the result array: row 5000 t + j 0, column j 1. -/
theorem stored_eq (c : Dev nD) (t : Fin cfg1.N) (j : S5000x128.Idx) (i : S50000x128.Idx)
    (h0 : (i 0).val = t.val * 5000 + (j 0).val) (h1 : (i 1).val = (j 1).val) :
    k1_pay1 (F := Ideal) (iblk1 V c 1 t) (iblk1 V c 0 t) (iblk1 V c 2 t) (iblk1 V c 3 t) j
      = meanThenAffine (V c main_v15) (V c main_v20) (V c main_arg5) (V c main_arg6) i := by
  obtain ⟨p, q, rfl⟩ : ∃ (p : Fin 5000) (q : Fin 128), j = ix2 p q := ⟨j 0, j 1, eq_ix2 j⟩
  refine (stored_apply (iblk1 V c 1 t) (iblk1 V c 0 t) (iblk1 V c 2 t) (iblk1 V c 3 t) p q).trans ?_
  unfold meanThenAffine affineRows
  have hq : (⟨(i 1).val, (i 1).isLt⟩ : Fin 128) = q := Fin.ext h1
  rw [hq, bias_apply V c t q]
  refine congrArg (· + (V c main_arg6 : S128.Idx → Elt Ideal .f32) (ix1 q)) (Finset.sum_congr rfl fun k _ => ?_)
  rw [weights_apply V c t k q]
  refine congrArg (· * (V c main_arg5 : S128x128.Idx → Elt Ideal .f32) (ix2 k q)) ?_
  unfold meanRows
  rw [sums_apply V c t p k (ix2 ⟨(i 0).val, (i 0).isLt⟩ k) h0 rfl, degree_apply V c t p ⟨(i 0).val, (i 0).isLt⟩ h0]

/-- WHAT POINT `t` WRITES BACK is its block of `meanThenAffine` of the arrays the launch is entered with. -/
theorem flushed_eq (c : Dev nD) (t : Fin cfg1.N) :
    (dat1 V c).flushed 4 t = ((cfg1.win 4).blk t).view.read (Elt Ideal) (meanThenAffine (V c main_v15) (V c main_v20) (V c main_arg5) (V c main_arg6)) := by
  show (cfg1.win 4).cut (grid1.coords t) ((dat1 V c).after 4 t) = _
  rw [after1_4]
  unfold out1_4
  rw [View.canon_unit_zero zero2]
  simp only [View.ld_unit_zero (S := S5000x128) zero2, View.ld_unit_zero (S := S5000x1) zero2, View.ld_unit_zero (S := S128x128) zero2, View.ld_unit_zero (S := S128) zero1]
  obtain ⟨-, -, -, -, -, -, -, e7, e8⟩ := block_indices t
  funext j
  refine stored_eq V c t j _ ?_ ?_
  · show win1_4.index t (0 : Fin 2) * 5000 + 1 * (j 0).val = t.val * 5000 + (j 0).val; rw [e7]; omega
  · show win1_4.index t (1 : Fin 2) * 128 + 1 * (j 1).val = (j 1).val; rw [e8]; omega

/-- An entry of the result array lies in point `t`'s block iff each coordinate lies in the block's range. -/
theorem mem_block (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v21).slice (win1_4.rect t)).set ↔ _
  rw [View.set_slice_whole, Rect.mem_set_unit]
  exact Iff.rfl

/-- Row `r` of the result is written by point `r / 5000`: the ten blocks tile the array. -/
theorem covered (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 5000 < cfg1.N := lt_of_lt_of_eq (by omega : (i 0).val / 5000 < 10) N_1.symm
  refine ⟨⟨(i 0).val / 5000, ht⟩, flush1_4 _, ?_⟩
  rw [mem_block]
  obtain ⟨-, -, -, -, -, -, -, e7, e8⟩ := block_indices ⟨(i 0).val / 5000, ht⟩
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e7]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e8]; omega

/-- THE RESULT ARRAY after the launch: `meanThenAffine` of the arrays the launch is entered with. -/
theorem result (c : Dev nD) : (dat1 V c).arrAt 4 cfg1.N = meanThenAffine (V c main_v15) (V c main_v20) (V c main_arg5) (V c main_arg6) :=
  (dat1 V c).arrAt_eq_of_cover 4 _ (fun t _ => flushed_eq V c t) covered

end Cert.KernelIdeal.EdgeMessages

end
-- ==== Proof.NodeUpdate.lean ====
/-
  The third launch of the hypergraph layer: every node's summed messages are divided by the node's degree (at least
  one) and the negative part is cut off.
  The launch walks the 100000 node rows in ten blocks of 10000. At a grid point the body takes the block of summed rows
  and the block of the degree column, clamps each degree below by one, divides every entry of a row by the row's clamped
  degree and takes the maximum with zero. It is an entrywise map of the row's own data, so entry (r, c) of what a point
  writes back is  max(s[r, c] / max(d[r], 1), 0): the ten blocks are the restrictions of ONE function, `meanThenClip`,
  of the arrays the launch is entered with, and since they tile the result array it ends holding that function everywhere.
-/
import proofs.«132453_j4088808866139_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«132453_j4088808866139_1_alg».proof.Proof.LibColumnBroadcast

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.NodeUpdate

open Cert.KernelIdeal Cert.KernelIdeal.Gen

/-- A row of sums divided by the row's degree, the degree clamped below by one; then the maximum with zero. -/
def meanThenClip (S : S100000x128.Idx → Elt Ideal .f32) (d : S100000x1.Idx → Elt Ideal .f32) : S100000x128.Idx → Elt Ideal .f32 :=
  fun i => max (Ideal.div (S i) (max (d (ix2 ⟨(i 0).val, (i 0).isLt⟩ (0 : Fin 1))) (Ideal.ofBits .f32 0x3F800000#32))) (Ideal.ofBits .f32 0x00000000#32)

/-- What the body stores at entry (p, q) of its block. -/
theorem stored_apply (d : FVec Ideal S10000x1 .f32) (s : FVec Ideal S10000x128 .f32) (p : Fin 10000) (q : Fin 128) :
    k2_pay1 (F := Ideal) d s (ix2 p q)
      = max (Ideal.div (s (ix2 p q)) (max (d (ix2 p (0 : Fin 1))) (Ideal.ofBits .f32 0x3F800000#32))) (Ideal.ofBits .f32 0x00000000#32) := by
  unfold k2_pay1
  show max (divf (F := Ideal) (shapeCast S10000x128 s shapeCasts_S10000x128_S10000x128)
        (broadcastTo S10000x128 (maximumf (F := Ideal) (shapeCast S10000x1 d shapeCasts_S10000x1_S10000x1) (broadcast S10000x1 (Scalar.ofBits .f32 0x3F800000#32))) broadcasts_S10000x1_S10000x128) (ix2 p q))
      (broadcast S10000x128 (Scalar.ofBits (F := Ideal) .f32 0x00000000#32) (ix2 p q)) = _
  rw [divf_apply, broadcastTo_a1_ab_apply, shapeCast_self, shapeCast_self]
  rfl

/-! ## The blocks of the launch -/

variable (V : (c : Dev nD) → (b : Ref sig .tc) → Buf (Elt Ideal) ((c : Thread nD τ).loc b))

theorem zero2 : (![0, 0] : Fin 2 → Nat) = fun _ => 0 := funext fun a => by fin_cases a <;> rfl

/-- The index maps over the ten grid points: the sums, the degree column and the result sit at block row `t`, column block 0. -/
theorem block_indices : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Entry (p, q) of the sums block at point `t` is entry (10000 t + p, q) of the array of summed messages. -/
theorem sums_apply (c : Dev nD) (t : Fin cfg2.N) (p : Fin 10000) (q : Fin 128) (i : S100000x128.Idx)
    (h0 : (i 0).val = t.val * 10000 + p.val) (h1 : (i 1).val = q.val) :
    (iblk2 V c 0 t : Vec Ideal S10000x128 .f32) (ix2 p q) = (V c main_v31 : S100000x128.Idx → Elt Ideal .f32) i := by
  obtain ⟨e0, e1, -⟩ := block_indices t
  unfold iblk2
  rw [View.read_apply]
  show V c main_v31 _ = V c main_v31 _
  refine congrArg (V c main_v31) (funext fun a => Fin.ext ?_)
  match a with
  | ⟨0, _⟩ => show win2_0.index t (0 : Fin 2) * 10000 + 1 * p.val = (i 0).val; rw [e0, h0]; omega
  | ⟨1, _⟩ => show win2_0.index t (1 : Fin 2) * 128 + 1 * q.val = (i 1).val; rw [e1, h1]; omega

/-- Entry (p, 0) of the degree block at point `t` is entry (10000 t + p, 0) of the degree column. -/
theorem degree_apply (c : Dev nD) (t : Fin cfg2.N) (p : Fin 10000) (r : Fin 100000) (h0 : r.val = t.val * 10000 + p.val) :
    (iblk2 V c 1 t : Vec Ideal S10000x1 .f32) (ix2 p (0 : Fin 1)) = (V c main_v35 : S100000x1.Idx → Elt Ideal .f32) (ix2 r (0 : Fin 1)) := by
  obtain ⟨-, -, e2, e3, -⟩ := block_indices t
  unfold iblk2
  rw [View.read_apply]
  show V c main_v35 _ = V c main_v35 _
  refine congrArg (V c main_v35) (funext fun a => Fin.ext ?_)
  match a with
  | ⟨0, _⟩ => show win2_1.index t (0 : Fin 2) * 10000 + 1 * p.val = r.val; rw [e2, h0]; omega
  | ⟨1, _⟩ => show win2_1.index t (1 : Fin 2) * 1 + 1 * 0 = 0; rw [e3]

/-- What point `t` stores at entry `j` of its block is `meanThenClip` of the entry arrays at the entry's place `i` in the
    result array: row 10000 t + j 0, column j 1. -/
theorem stored_eq (c : Dev nD) (t : Fin cfg2.N) (j : S10000x128.Idx) (i : S100000x128.Idx)
    (h0 : (i 0).val = t.val * 10000 + (j 0).val) (h1 : (i 1).val = (j 1).val) :
    k2_pay1 (F := Ideal) (iblk2 V c 1 t) (iblk2 V c 0 t) j = meanThenClip (V c main_v31) (V c main_v35) i := by
  obtain ⟨p, q, rfl⟩ : ∃ (p : Fin 10000) (q : Fin 128), j = ix2 p q := ⟨j 0, j 1, eq_ix2 j⟩
  refine (stored_apply (iblk2 V c 1 t) (iblk2 V c 0 t) p q).trans ?_
  unfold meanThenClip
  rw [sums_apply V c t p q i h0 h1, degree_apply V c t p ⟨(i 0).val, (i 0).isLt⟩ h0]

/-- WHAT POINT `t` WRITES BACK is its block of `meanThenClip` of the arrays the launch is entered with. -/
theorem flushed_eq (c : Dev nD) (t : Fin cfg2.N) :
    (dat2 V c).flushed 2 t = ((cfg2.win 2).blk t).view.read (Elt Ideal) (meanThenClip (V c main_v31) (V c main_v35)) := by
  show (cfg2.win 2).cut (grid2.coords t) ((dat2 V c).after 2 t) = _
  rw [after2_2]
  unfold out2_2
  rw [View.canon_unit_zero zero2]
  simp only [View.ld_unit_zero (S := S10000x128) zero2, View.ld_unit_zero (S := S10000x1) zero2]
  obtain ⟨-, -, -, -, e4, e5⟩ := block_indices t
  funext j
  refine stored_eq V c t j _ ?_ ?_
  · show win2_2.index t (0 : Fin 2) * 10000 + 1 * (j 0).val = t.val * 10000 + (j 0).val; rw [e4]; omega
  · show win2_2.index t (1 : Fin 2) * 128 + 1 * (j 1).val = (j 1).val; rw [e5]; omega

/-- An entry of the result array lies in point `t`'s block iff each coordinate lies in the block's range. -/
theorem mem_block (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v36).slice (win2_2.rect t)).set ↔ _
  rw [View.set_slice_whole, Rect.mem_set_unit]
  exact Iff.rfl

/-- Row `r` of the result is written by point `r / 10000`: the ten blocks tile the array. -/
theorem covered (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 10000 < cfg2.N := lt_of_lt_of_eq (by omega : (i 0).val / 10000 < 10) N_2.symm
  refine ⟨⟨(i 0).val / 10000, ht⟩, flush2_2 _, ?_⟩
  rw [mem_block]
  obtain ⟨-, -, -, -, e4, e5⟩ := block_indices ⟨(i 0).val / 10000, ht⟩
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 128 ≤ (i 1).val ∧ (i 1).val < win2_2.index ⟨(i 0).val / 10000, ht⟩ (1 : Fin 2) * 128 + 128
    rw [e5]; omega

/-- THE RESULT ARRAY after the launch: `meanThenClip` of the arrays the launch is entered with. -/
theorem result (c : Dev nD) : (dat2 V c).arrAt 2 cfg2.N = meanThenClip (V c main_v31) (V c main_v35) :=
  (dat2 V c).arrAt_eq_of_cover 2 _ (fun t _ => flushed_eq V c t) covered

end Cert.KernelIdeal.NodeUpdate

end
-- ==== Proof.RefStages.lean ====
/-
  The reference's three dense stages are the three launches' functions.
  The reference computes the node messages as one whole matrix product plus a broadcast bias, the edge means and node
  means by a division by a clamped degree broadcast along the rows, and the final clip by a maximum with zero. Read at an
  entry, each is the same expression the corresponding launch leaves at that entry: the host's matrix product is the
  row's sum over the contracted axis, the bias broadcast reads the bias entry of the column, the degree broadcast reads
  the row's degree, and the launch's degree column (the degree vector reshaped to one column) reads the same degree.
-/
import proofs.«132453_j4088808866139_1_alg».proof.Proof.Gen.ReferenceIdeal.Read
import proofs.«132453_j4088808866139_1_alg».proof.Proof.NodeMessages
import proofs.«132453_j4088808866139_1_alg».proof.Proof.EdgeMessages
import proofs.«132453_j4088808866139_1_alg».proof.Proof.NodeUpdate

set_option maxRecDepth 16384

noncomputable section

open scoped BigOperators
open Idealize.ShloMosaic Idealize.ShloMosaic.TcCoe Idealize.SL.Sem
open Idealize.ShloMosaic.ValueIdx

namespace Cert.ReferenceIdeal.Stages

open Cert.ReferenceIdeal Cert.ReferenceIdeal.Read

/-! ## Node messages -/

/-- The reference's node messages: the whole matrix product plus the broadcast bias is `affineRows`. -/
theorem node_messages (x1 : (⟨S12800000, .f32⟩ : BufTy).Contents (Elt Ideal)) (x3 : (⟨S128x128, .f32⟩ : BufTy).Contents (Elt Ideal))
    (x4 : (⟨S128, .f32⟩ : BufTy).Contents (Elt Ideal)) :
    val_main_v9 (F := Ideal) x1 x3 x4 = Cert.KernelIdeal.NodeMessages.affineRows (val_main_v0 (F := Ideal) x1) x3 x4 := by
  funext i
  rw [val_main_v9_apply, val_main_v6_apply, val_main_v8_apply, val_main_v7_apply]
  unfold Cert.KernelIdeal.NodeMessages.affineRows
  have el : ∀ k : Fin 128, lidx_main_v6 i k = ix2 ⟨(i 0).val, (i 0).isLt⟩ k := fun k => funext fun a => by
    match a with | ⟨0, _⟩ => rfl | ⟨1, _⟩ => rfl
  have er : ∀ k : Fin 128, ridx_main_v6 i k = ix2 k ⟨(i 1).val, (i 1).isLt⟩ := fun k => funext fun a => by
    match a with | ⟨0, _⟩ => rfl | ⟨1, _⟩ => rfl
  have eb : idx_main_v7 (idx_main_v8 i) = ix1 ⟨(i 1).val, (i 1).isLt⟩ := funext fun a => by
    match a with | ⟨0, _⟩ => rfl
  simp only [el, er, eb]
  rfl

/-! ## Edge messages -/

/-- The reference's edge means: the sums over the clamped degree broadcast along the rows are `meanRows` of the sums and
    of the degree vector reshaped to a column. -/
theorem edge_means (s : (⟨S50000x128, .f32⟩ : BufTy).Contents (Elt Ideal)) (d : (⟨S50000, .f32⟩ : BufTy).Contents (Elt Ideal))
    (h : S50000.ShapeCasts S50000x1) (j : S50000x128.Idx) :
    FloatOps.hostDivf (s j) (FloatOps.maximumf (d (idx_main_v25 (idx_main_v26 j))) (FloatOps.ofBits (F := Ideal) .f32 0x3F800000#32))
      = Cert.KernelIdeal.EdgeMessages.meanRows s (shapeCast S50000x1 d h) j := by
  unfold Cert.KernelIdeal.EdgeMessages.meanRows
  rw [shapeCast_a_a1_apply]
  have e : idx_main_v25 (idx_main_v26 j) = ix1 ⟨(j 0).val, (j 0).isLt⟩ := funext fun a => by
    match a with | ⟨0, _⟩ => rfl
  rw [e]
  rfl

/-- The reference's edge messages: the edge means through the second matrix product plus bias are `meanThenAffine`. -/
theorem edge_messages (x1 : (⟨S12800000, .f32⟩ : BufTy).Contents (Elt Ideal)) (x2 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (h : S50000.ShapeCasts S50000x1) :
    val_main_v31 (F := Ideal) x1 x2 x3 x4 x5 x6
      = Cert.KernelIdeal.EdgeMessages.meanThenAffine (val_main_v19 (F := Ideal) x1 x2 x3 x4) (shapeCast S50000x1 (val_main_v22 (F := Ideal) x2) h) x5 x6 := by
  funext i
  rw [val_main_v31_apply, val_main_v28_apply, val_main_v30_apply, val_main_v29_apply]
  unfold Cert.KernelIdeal.EdgeMessages.meanThenAffine Cert.KernelIdeal.EdgeMessages.affineRows
  have el : ∀ k : Fin 128, lidx_main_v28 i k = ix2 ⟨(i 0).val, (i 0).isLt⟩ k := fun k => funext fun a => by
    match a with | ⟨0, _⟩ => rfl | ⟨1, _⟩ => rfl
  have er : ∀ k : Fin 128, ridx_main_v28 i k = ix2 k ⟨(i 1).val, (i 1).isLt⟩ := fun k => funext fun a => by
    match a with | ⟨0, _⟩ => rfl | ⟨1, _⟩ => rfl
  have eb : idx_main_v29 (idx_main_v30 i) = ix1 ⟨(i 1).val, (i 1).isLt⟩ := funext fun a => by
    match a with | ⟨0, _⟩ => rfl
  have em : ∀ j : S50000x128.Idx, val_main_v27 (F := Ideal) x1 x2 x3 x4 j
      = Cert.KernelIdeal.EdgeMessages.meanRows (val_main_v19 (F := Ideal) x1 x2 x3 x4) (shapeCast S50000x1 (val_main_v22 (F := Ideal) x2) h) j := fun j => by
    rw [val_main_v27_apply, val_main_v26_apply, val_main_v25_apply, val_main_v24_apply, val_main_v23_apply, val_main_cst_3_apply]
    exact edge_means _ _ h j
  simp only [el, er, eb]
  exact congrArg (· + x6 (ix1 ⟨(i 1).val, (i 1).isLt⟩)) (Finset.sum_congr rfl fun k _ =>
    congrArg (· * x5 (ix2 k ⟨(i 1).val, (i 1).isLt⟩)) (em _))

/-! ## Node update -/

/-- The reference's node means clipped at zero are `meanThenClip` of the sums and of the degree vector reshaped to a column. -/
theorem node_update (x1 : (⟨S12800000, .f32⟩ : BufTy).Contents (Elt Ideal)) (x2 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (h : S100000.ShapeCasts S100000x1) :
    val_main_v50 (F := Ideal) x1 x2 x3 x4 x5 x6
      = Cert.KernelIdeal.NodeUpdate.meanThenClip (val_main_v41 (F := Ideal) x1 x2 x3 x4 x5 x6) (shapeCast S100000x1 (val_main_v44 (F := Ideal) x2) h) := by
  funext i
  rw [val_main_v50_apply, val_main_v49_apply, val_main_v48_apply, val_main_v47_apply, val_main_v46_apply, val_main_v45_apply,
    val_main_cst_8_apply, val_main_call0_v0_apply, val_main_call0_cst_apply]
  unfold Cert.KernelIdeal.NodeUpdate.meanThenClip
  rw [shapeCast_a_a1_apply]
  have e : idx_main_v47 (idx_main_v48 i) = ix1 ⟨(i 0).val, (i 0).isLt⟩ := funext fun a => by
    match a with | ⟨0, _⟩ => rfl
  rw [e]
  rfl

end Cert.ReferenceIdeal.Stages

end
-- ==== Proof.Layer.lean ====
/-
  The whole layer on the kernel's side: the three launches threaded through the host's gathers and segment sums, and
  the result equal to the reference's.
  Between the launches the host gathers message rows by one half of the incidence pairs and adds them into the rows
  named by the other half, and counts the degrees the same way. The kernel's program and the reference apply the SAME
  gathers and segment sums to the SAME index vectors, so they are never opened here: each is carried as one function, and
  what is proved is that the values going INTO them agree. Those values are the launches' results, which are the
  reference's three dense stages (node messages, edge messages, node update) by the launches' whole-array functions.
  The buffer contents at each boundary of the run are followed in order: after the first reshape; after launch one;
  after the first gather and segment sums; after launch two; after the second gather and segment sums; after launch
  three; after the last reshape, where the result buffer holds the reference's result term of the arguments.
-/
import proofs.«132453_j4088808866139_1_alg».proof.Proof.RefStages
import proofs.«132453_j4088808866139_1_alg».proof.Proof.ResultRun
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Layer

open Cert.KernelIdeal Cert.KernelIdeal.Gen Cert.ReferenceIdeal.Read

variable (m : (ℓ : Loc nD τ sig) → Buf (Elt Ideal) ℓ) (ρ : Dev nD → PrngReg)

/-! ## After the first reshape: the feature matrix, and every argument as launched -/

theorem at_features (c : Dev nD) : W1 m ρ c (Proc.devRef .tc main_v0) = val_main_v0 (F := Ideal) (m ((c : Thread nD τ).loc main_arg1)) := by
  show StableHlo.after hostOps0 (W0 m ρ c) (Proc.devRef .tc main_v0) = _
  after_results
  rfl
theorem at_features_main_arg2 (c : Dev nD) : W1 m ρ c (Proc.devRef .tc main_arg2) = m ((c : Thread nD τ).loc main_arg2) := by
  show StableHlo.after hostOps0 (W0 m ρ c) (Proc.devRef .tc main_arg2) = _
  after_results
theorem at_features_main_arg3 (c : Dev nD) : W1 m ρ c (Proc.devRef .tc main_arg3) = m ((c : Thread nD τ).loc main_arg3) := by
  show StableHlo.after hostOps0 (W0 m ρ c) (Proc.devRef .tc main_arg3) = _
  after_results
theorem at_features_main_arg4 (c : Dev nD) : W1 m ρ c (Proc.devRef .tc main_arg4) = m ((c : Thread nD τ).loc main_arg4) := by
  show StableHlo.after hostOps0 (W0 m ρ c) (Proc.devRef .tc main_arg4) = _
  after_results
theorem at_features_main_arg5 (c : Dev nD) : W1 m ρ c (Proc.devRef .tc main_arg5) = m ((c : Thread nD τ).loc main_arg5) := by
  show StableHlo.after hostOps0 (W0 m ρ c) (Proc.devRef .tc main_arg5) = _
  after_results
theorem at_features_main_arg6 (c : Dev nD) : W1 m ρ c (Proc.devRef .tc main_arg6) = m ((c : Thread nD τ).loc main_arg6) := by
  show StableHlo.after hostOps0 (W0 m ρ c) (Proc.devRef .tc main_arg6) = _
  after_results

/-! ## After launch one: the node messages -/

theorem at_node_messages (c : Dev nD) : W2 m ρ c (Proc.devRef .tc main_v1) = val_main_v9 (F := Ideal) (m ((c : Thread nD τ).loc main_arg1)) (m ((c : Thread nD τ).loc main_arg3)) (m ((c : Thread nD τ).loc main_arg4)) := by
  refine (W2_arr m ρ c 3).trans ((Cert.KernelIdeal.NodeMessages.result (V1 m ρ) c).trans ?_)
  show Cert.KernelIdeal.NodeMessages.affineRows (W1 m ρ c (Proc.devRef .tc main_v0)) (W1 m ρ c (Proc.devRef .tc main_arg3)) (W1 m ρ c (Proc.devRef .tc main_arg4)) = _
  rw [at_features, at_features_main_arg3, at_features_main_arg4]
  exact (Cert.ReferenceIdeal.Stages.node_messages _ _ _).symm
theorem at_node_messages_main_arg2 (c : Dev nD) : W2 m ρ c (Proc.devRef .tc main_arg2) = m ((c : Thread nD τ).loc main_arg2) :=
  (W2_of_ne m ρ c main_arg2 (by decide)).trans (at_features_main_arg2 m ρ c)
theorem at_node_messages_main_arg5 (c : Dev nD) : W2 m ρ c (Proc.devRef .tc main_arg5) = m ((c : Thread nD τ).loc main_arg5) :=
  (W2_of_ne m ρ c main_arg5 (by decide)).trans (at_features_main_arg5 m ρ c)
theorem at_node_messages_main_arg6 (c : Dev nD) : W2 m ρ c (Proc.devRef .tc main_arg6) = m ((c : Thread nD τ).loc main_arg6) :=
  (W2_of_ne m ρ c main_arg6 (by decide)).trans (at_features_main_arg6 m ρ c)

/-! ## After the first gather and segment sums: the edge sums and degrees, and the two index vectors -/

theorem at_edge_sums (c : Dev nD) : W3 m ρ c (Proc.devRef .tc main_v15) = val_main_v19 (F := Ideal) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v15) = _
  after_results
  rw [at_node_messages, at_node_messages_main_arg2]
  rfl
theorem at_edge_degrees (c : Dev nD) : W3 m ρ c (Proc.devRef .tc main_v20) = shapeCast S50000x1 (val_main_v22 (F := Ideal) (m ((c : Thread nD τ).loc main_arg2))) shapeCasts_S50000_S50000x1 := by
  show StableHlo.after hostOps1 (W2 m ρ c) (Proc.devRef .tc main_v20) = _
  after_results
  rw [at_node_messages_main_arg2]
  rfl
theorem at_edge_sums_nodes (c : Dev nD) : W3 m ρ c (Proc.devRef .tc main_v3) = val_main_v2 (F := Ideal) (m ((c : Thread nD τ).loc main_arg2)) := by
  show StableHlo.after hostOps1 (W2 m ρ c) (Proc.devRef .tc main_v3) = _
  after_results
  rw [at_node_messages_main_arg2]
  rfl
theorem at_edge_sums_edges (c : Dev nD) : W3 m ρ c (Proc.devRef .tc main_v5) = val_main_v4 (F := Ideal) (m ((c : Thread nD τ).loc main_arg2)) := by
  show StableHlo.after hostOps1 (W2 m ρ c) (Proc.devRef .tc main_v5) = _
  after_results
  rw [at_node_messages_main_arg2]
  rfl
theorem at_edge_sums_ones (c : Dev nD) : W3 m ρ c (Proc.devRef .tc main_v16) = val_main_v5 (F := Ideal) := by
  show StableHlo.after hostOps1 (W2 m ρ c) (Proc.devRef .tc main_v16) = _
  after_results
  rfl
theorem at_edge_sums_main_arg5 (c : Dev nD) : W3 m ρ c (Proc.devRef .tc main_arg5) = m ((c : Thread nD τ).loc main_arg5) := by
  show StableHlo.after hostOps1 (W2 m ρ c) (Proc.devRef .tc main_arg5) = _
  after_results
  exact at_node_messages_main_arg5 m ρ c
theorem at_edge_sums_main_arg6 (c : Dev nD) : W3 m ρ c (Proc.devRef .tc main_arg6) = m ((c : Thread nD τ).loc main_arg6) := by
  show StableHlo.after hostOps1 (W2 m ρ c) (Proc.devRef .tc main_arg6) = _
  after_results
  exact at_node_messages_main_arg6 m ρ c

/-! ## After launch two: the edge messages -/

theorem at_edge_messages (c : Dev nD) : W4 m ρ c (Proc.devRef .tc main_v21) = val_main_v31 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 4).trans ((Cert.KernelIdeal.EdgeMessages.result (V3 m ρ) c).trans ?_)
  show Cert.KernelIdeal.EdgeMessages.meanThenAffine (W3 m ρ c (Proc.devRef .tc main_v15)) (W3 m ρ c (Proc.devRef .tc main_v20)) (W3 m ρ c (Proc.devRef .tc main_arg5)) (W3 m ρ c (Proc.devRef .tc main_arg6)) = _
  rw [at_edge_sums, at_edge_degrees, at_edge_sums_main_arg5, at_edge_sums_main_arg6]
  exact (Cert.ReferenceIdeal.Stages.edge_messages _ _ _ _ _ _ _).symm
theorem at_edge_messages_nodes (c : Dev nD) : W4 m ρ c (Proc.devRef .tc main_v3) = val_main_v2 (F := Ideal) (m ((c : Thread nD τ).loc main_arg2)) :=
  (W4_of_ne m ρ c main_v3 (by decide)).trans (at_edge_sums_nodes m ρ c)
theorem at_edge_messages_edges (c : Dev nD) : W4 m ρ c (Proc.devRef .tc main_v5) = val_main_v4 (F := Ideal) (m ((c : Thread nD τ).loc main_arg2)) :=
  (W4_of_ne m ρ c main_v5 (by decide)).trans (at_edge_sums_edges m ρ c)
theorem at_edge_messages_ones (c : Dev nD) : W4 m ρ c (Proc.devRef .tc main_v16) = val_main_v5 (F := Ideal) :=
  (W4_of_ne m ρ c main_v16 (by decide)).trans (at_edge_sums_ones m ρ c)

/-! ## After the second gather and segment sums: the node sums and degrees -/

theorem at_node_sums (c : Dev nD) : W5 m ρ c (Proc.devRef .tc main_v31) = val_main_v41 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v31) = _
  after_results
  rw [at_edge_messages, at_edge_messages_nodes, at_edge_messages_edges]
  rfl
theorem at_node_degrees (c : Dev nD) : W5 m ρ c (Proc.devRef .tc main_v35) = shapeCast S100000x1 (val_main_v44 (F := Ideal) (m ((c : Thread nD τ).loc main_arg2))) shapeCasts_S100000_S100000x1 := by
  show StableHlo.after hostOps2 (W4 m ρ c) (Proc.devRef .tc main_v35) = _
  after_results
  rw [at_edge_messages_nodes, at_edge_messages_ones]
  rfl

/-! ## After launch three, and after the last reshape: the result -/

theorem at_node_update (c : Dev nD) : W6 m ρ c (Proc.devRef .tc main_v36) = val_main_v50 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 2).trans ((Cert.KernelIdeal.NodeUpdate.result (V5 m ρ) c).trans ?_)
  show Cert.KernelIdeal.NodeUpdate.meanThenClip (W5 m ρ c (Proc.devRef .tc main_v31)) (W5 m ρ c (Proc.devRef .tc main_v35)) = _
  rw [at_node_sums, at_node_degrees]
  exact (Cert.ReferenceIdeal.Stages.node_update _ _ _ _ _ _ _).symm

/-- The result buffer at the end of the run holds the reference's result term of the launch arguments. -/
theorem at_result (c : Dev nD) : W7 m ρ c (Proc.devRef .tc main_v37) = val_main_v51 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v37) = _
  after_results
  rw [at_node_update]
  rfl

/-- The kernel's run, read: every weakly fair execution terminates with the result buffer at the reference's result term
    of the launch arguments, and the arguments as launched. -/
theorem run : θ_run defs (onTc (τ := τ) (main (F := Ideal))) ⟨m, fun _ => 0, ρ⟩ (fun r => ∀ c : Dev nD,
      r.2.mem ((c.tc : Thread nD τ).loc main_v37) = val_main_v51 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (at_result m ρ c), (h c).2⟩)
    (Cert.KernelIdeal.ResultRun.run_result (F := Ideal) m ρ)

end Cert.KernelIdeal.Layer

end
-- ==== Proof.lean ====
/-
  One layer of hypergraph message passing on 100000 nodes and 50000 hyperedges with 128 features, 1.6 million
  (node, hyperedge) incidence pairs: the kernel's three launches against the reference's plain array program, over
  the extended reals.

  Both programs compute
      X        = y reshaped to 100000 x 128
      msg      = X W1 + b1                                   (node messages)
      esum[e]  = sum of msg[n] over the pairs (n, e),  edeg[e] = the number of such pairs
      out      = (esum / max(edeg, 1)) W2 + b2               (edge messages)
      nsum[n]  = sum of out[e] over the pairs (n, e),  ndeg[n] = the number of such pairs
      result   = max(nsum / max(ndeg, 1), 0), flattened.
  The kernel computes msg, out and the last line in three launches, each walking its rows in ten blocks; the gathers and
  segment sums between them are the same host operations on the same index vectors in both programs and are never opened.
  Each launch's blocks are the restrictions of one whole-array function of the arrays it is entered with (the modules
  NodeMessages, EdgeMessages, NodeUpdate); each of those functions is the reference's stage read at an entry: a matrix
  product is the row's sum over the contracted axis on both sides, the narrowing to bf16 is the identity over the
  extended reals, and a degree kept as a column reads the same degree as one broadcast along the rows (RefStages). The
  kernel's run is followed boundary by boundary (Layer) and ends at the reference's result term of the arguments, so
  the two runs are compared by rewriting the arguments' agreement. No law of arithmetic beyond the definitions is
  needed, and the precondition is never opened: the two sides are one expression entry by entry.
  The frames of the two kernel programs are their generated frames; the reference's is its generated run with the
  result dropped; the idealization rewrote no operation, so there is nothing to preserve.
-/
import proofs.«132453_j4088808866139_1_alg».proof.Defs
import proofs.«132453_j4088808866139_1_alg».proof.Proof.Gen.Kernel
import proofs.«132453_j4088808866139_1_alg».proof.Proof.Gen.Kernel.Skeleton
import proofs.«132453_j4088808866139_1_alg».proof.Proof.Gen.Kernel.Launch
import proofs.«132453_j4088808866139_1_alg».proof.Proof.Gen.Kernel.Points
import proofs.«132453_j4088808866139_1_alg».proof.Proof.Gen.Kernel.Frame
import proofs.«132453_j4088808866139_1_alg».proof.Proof.Gen.KernelIdeal
import proofs.«132453_j4088808866139_1_alg».proof.Proof.Gen.KernelIdeal.Skeleton
import proofs.«132453_j4088808866139_1_alg».proof.Proof.Gen.KernelIdeal.Launch
import proofs.«132453_j4088808866139_1_alg».proof.Proof.Gen.KernelIdeal.Points
import proofs.«132453_j4088808866139_1_alg».proof.Proof.Gen.KernelIdeal.Frame
import proofs.«132453_j4088808866139_1_alg».proof.Proof.Gen.ReferenceIdeal
import proofs.«132453_j4088808866139_1_alg».proof.Proof.Gen.ReferenceIdeal.Run
import proofs.«132453_j4088808866139_1_alg».proof.Proof.Gen.ReferenceIdeal.Read
import proofs.«132453_j4088808866139_1_alg».proof.Proof.Gen.Pre_finite_inputs
import proofs.«132453_j4088808866139_1_alg».proof.Proof.Layer
import Idealize.ShloMosaic.Adequacy
import Idealize.ShloMosaic.Init

noncomputable section

namespace Cert.Proof

open Idealize.ShloMosaic Idealize.SL.Sem

/-- The word-level kernel runs and keeps its arguments: the generated frame over its three launches. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result buffer ends at the reference's result term of the kernel's arguments and the
    reference's at the same term of its own arguments, which agree. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq]
  obtain ⟨-, h1, h2, h3, h4, h5, h6⟩ := hagree c
  rw [h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
